-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x1024x1024 : Shape := ⟨4, ![8, 8, 1024, 1024]⟩
abbrev S8x8x1024x64 : Shape := ⟨4, ![8, 8, 1024, 64]⟩
abbrev S_ : Shape := ⟨0, ![]⟩

class Facts : Prop where
  bcast_S_S8x8x1024x1024 : S_.BroadcastsInDim S8x8x1024x1024 (![] : Fin 0 → Fin S8x8x1024x1024.rank)
  reducesTo_S8x8x1024x1024_S_d0_1_2_3 : S8x8x1024x1024.ReducesTo [0, 1, 2, 3] S_
  h_S_ : 0 < S_.numel
  bcast_S_S8x8x1024x64 : S_.BroadcastsInDim S8x8x1024x64 (![] : Fin 0 → Fin S8x8x1024x64.rank)
  reducesTo_S8x8x1024x64_S_d0_1_2_3 : S8x8x1024x64.ReducesTo [0, 1, 2, 3] S_

variable [Facts]

def fn {F : FTy → Type} [FloatOps F] (main_arg0 : FVec F S8x8x1024x1024 .f32) (main_arg1 : FVec F S8x8x1024x1024 .f32) (main_arg2 : FVec F S8x8x1024x64 .f32) : IVec S_ 1 :=
  let main_v0 : FVec F S8x8x1024x1024 .f32 := Host.absf main_arg0
  let main_cst : FVec F S_ .f32 := constant S_ .f32 0x7F800000#32
  let main_v1 : FVec F S8x8x1024x1024 .f32 := broadcastInDim S8x8x1024x1024 ![] bcast_S_S8x8x1024x1024 main_cst
  let main_v2 : IVec S8x8x1024x1024 1 := cmpf .olt main_v0 main_v1
  let main_c : IVec S_ 1 := constantI S_ 1 1#1
  let main_v3 : IVec S_ 1 := (fun x v => Host.reduce IntOp.andi x v reducesTo_S8x8x1024x1024_S_d0_1_2_3 h_S_) main_v2 main_c
  let main_v4 : FVec F S8x8x1024x1024 .f32 := Host.absf main_arg1
  let main_cst_0 : FVec F S_ .f32 := constant S_ .f32 0x7F800000#32
  let main_v5 : FVec F S8x8x1024x1024 .f32 := broadcastInDim S8x8x1024x1024 ![] bcast_S_S8x8x1024x1024 main_cst_0
  let main_v6 : IVec S8x8x1024x1024 1 := cmpf .olt main_v4 main_v5
  let main_c_1 : IVec S_ 1 := constantI S_ 1 1#1
  let main_v7 : IVec S_ 1 := (fun x v => Host.reduce IntOp.andi x v reducesTo_S8x8x1024x1024_S_d0_1_2_3 h_S_) main_v6 main_c_1
  let main_v8 : IVec S_ 1 := andi main_v3 main_v7
  let main_v9 : FVec F S8x8x1024x64 .f32 := Host.absf main_arg2
  let main_cst_2 : FVec F S_ .f32 := constant S_ .f32 0x7F800000#32
  let main_v10 : FVec F S8x8x1024x64 .f32 := broadcastInDim S8x8x1024x64 ![] bcast_S_S8x8x1024x64 main_cst_2
  let main_v11 : IVec S8x8x1024x64 1 := cmpf .olt main_v9 main_v10
  let main_c_3 : IVec S_ 1 := constantI S_ 1 1#1
  let main_v12 : IVec S_ 1 := (fun x v => Host.reduce IntOp.andi x v reducesTo_S8x8x1024x64_S_d0_1_2_3 h_S_) main_v11 main_c_3
  let main_v13 : IVec S_ 1 := andi main_v8 main_v12
  main_v13
-- ==== Kernel.lean ====
abbrev S8x8x1024x1024 : Shape := ⟨4, ![8, 8, 1024, 1024]⟩
abbrev S8x8x1024x64 : Shape := ⟨4, ![8, 8, 1024, 64]⟩
abbrev S1x1x1024x1024 : Shape := ⟨4, ![1, 1, 1024, 1024]⟩
abbrev S1x1x1024x64 : Shape := ⟨4, ![1, 1, 1024, 64]⟩
abbrev S1024x1024 : Shape := ⟨2, ![1024, 1024]⟩
abbrev S1024x64 : Shape := ⟨2, ![1024, 64]⟩
abbrev S1024 : Shape := ⟨1, ![1024]⟩
abbrev S1024x1 : Shape := ⟨2, ![1024, 1]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8x8x1024x1024, .f32⟩
  | .hbm, ⟨1, _⟩ => ⟨S8x8x1024x1024, .f32⟩
  | .hbm, ⟨2, _⟩ => ⟨S8x8x1024x64, .f32⟩
  | .hbm, ⟨3, _⟩ => ⟨S8x8x1024x64, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1024x64, .f32⟩
  | .local _ .vmem, ⟨5, _⟩ => ⟨S1x1x1024x64, .f32⟩
  | .local _ .vmem, ⟨6, _⟩ => ⟨S1x1x1024x64, .f32⟩
  | .local _ .vmem, ⟨7, _⟩ => ⟨S1x1x1024x64, .f32⟩
  | _, _ => ⟨S8x8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  reduces_S1024x1024_S1024 : S1024x1024.Reduces [1] S1024
  shapeCasts_S1024_S1024x1 : S1024.ShapeCasts S1024x1
  reduces_S1024x1024_S1024_2 : S1024x1024.Reduces [0] S1024
  shapeCasts_S1024_S1x1024 : S1024.ShapeCasts S1x1024
  transposes_S1x1024_p1_0_S1024x1 : S1x1024.Transposes [1, 0] S1024x1
  broadcasts_S1024x1_S1024x64 : S1024x1.Broadcasts S1024x64
  shapeCasts_S1024x64_S1x1x1024x64 : S1024x64.ShapeCasts S1x1x1024x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x1024.size a ≤ S8x8x1024x1024.size a
  hwx0_0 : ∀ i : grid0.Coords, EltTy.bits .f32 = 32 ∨ (Rect.block (s := S8x8x1024x1024) S1x1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S8x8x1024x1024.size a
  hwx0_1 : ∀ i : grid0.Coords, EltTy.bits .f32 = 32 ∨ (Rect.block (s := S8x8x1024x1024) S1x1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x64.size a ≤ S8x8x1024x64.size a
  hwx0_2 : ∀ i : grid0.Coords, EltTy.bits .f32 = 32 ∨ (Rect.block (s := S8x8x1024x64) S1x1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024x64.size a ≤ S8x8x1024x64.size a
  hwx0_3 : ∀ i : grid0.Coords, EltTy.bits .f32 = 32 ∨ (Rect.block (s := S8x8x1024x64) S1x1x1024x64.size (cc0_transform_3 i) (hinb0_3 i)).WholeWords (EltTy.packing .f32)

variable [Facts₀]

abbrev win0_0 : Pipeline.Window sig grid0 :=
  Pipeline.Window.ofSpec (Memref.whole main_arg0) S1x1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x8x1024x1024 : Shape := ⟨4, ![8, 8, 1024, 1024]⟩
abbrev S8x8x1024x64 : Shape := ⟨4, ![8, 8, 1024, 64]⟩
abbrev S_ : Shape := ⟨0, ![]⟩
abbrev S8x8x1024 : Shape := ⟨3, ![8, 8, 1024]⟩
abbrev S8x8x1024x1 : Shape := ⟨4, ![8, 8, 1024, 1]⟩

abbrev nBuf : Space → Nat
  | .hbm => 61
  | .vmem => 0
  | .smem => 0
  | _ => 0

abbrev bufTy : (tb : Table) → Fin (tcTables nBuf tb) → BufTy
  | .hbm, ⟨0, _⟩ => ⟨S8x8x1024x1024, .f32⟩
  | .hbm, ⟨1, _⟩ => ⟨S8x8x1024x1024, .f32⟩
  | .hbm, ⟨2, _⟩ => ⟨S8x8x1024x64, .f32⟩
  | .hbm, ⟨3, _⟩ => ⟨S_, .f32⟩
  | .hbm, ⟨4, _⟩ => ⟨S8x8x1024x1024, .f32⟩
  | .hbm, ⟨5, _⟩ => ⟨S8x8x1024x1024, .i1⟩
  | .hbm, ⟨6, _⟩ => ⟨S_, .f32⟩
  | .hbm, ⟨7, _⟩ => ⟨S8x8x1024x1024, .f32⟩
  | .hbm, ⟨8, _⟩ => ⟨S8x8x1024x1024, .i1⟩
  | .hbm, ⟨9, _⟩ => ⟨S_, .f32⟩
  | .hbm, ⟨10, _⟩ => ⟨S_, .f32⟩
  | .hbm, ⟨11, _⟩ => ⟨S8x8x1024x1024, .f32⟩
  | .hbm, ⟨12, _⟩ => ⟨S8x8x1024x1024, .f32⟩
  | .hbm, ⟨13, _⟩ => ⟨S8x8x1024x1024, .f32⟩
  | .hbm, ⟨14, _⟩ => ⟨S_, .f32⟩
  | .hbm, ⟨15, _⟩ => ⟨S8x8x1024x1024, .f32⟩
  | .hbm, ⟨16, _⟩ => ⟨S8x8x1024x1024, .f32⟩
  | .hbm, ⟨17, _⟩ => ⟨S8x8x1024x1024, .f32⟩
  | .hbm, ⟨18, _⟩ => ⟨S_, .f32⟩
  | .hbm, ⟨19, _⟩ => ⟨S8x8x1024x1024, .f32⟩
  | .hbm, ⟨20, _⟩ => ⟨S8x8x1024x1024, .f32⟩
  | .hbm, ⟨21, _⟩ => ⟨S_, .f32⟩
  | .hbm, ⟨22, _⟩ => ⟨S8x8x1024x1024, .f32⟩
  | .hbm, ⟨23, _⟩ => ⟨S8x8x1024x1024, .i1⟩
  | .hbm, ⟨24, _⟩ => ⟨S_, .f32⟩
  | .hbm, ⟨25, _⟩ => ⟨S8x8x1024x1024, .f32⟩
  | .hbm, ⟨26, _⟩ => ⟨S8x8x1024x1024, .i1⟩
  | .hbm, ⟨27, _⟩ => ⟨S_, .f32⟩
  | .hbm, ⟨28, _⟩ => ⟨S_, .f32⟩
  | .hbm, ⟨29, _⟩ => ⟨S8x8x1024x1024, .f32⟩
  | .hbm, ⟨30, _⟩ => ⟨S8x8x1024x1024, .f32⟩
  | .hbm, ⟨31, _⟩ => ⟨S8x8x1024x1024, .f32⟩
  | .hbm, ⟨32, _⟩ => ⟨S_, .f32⟩
  | .hbm, ⟨33, _⟩ => ⟨S8x8x1024x1024, .f32⟩
  | .hbm, ⟨34, _⟩ => ⟨S8x8x1024x1024, .f32⟩
  | .hbm, ⟨35, _⟩ => ⟨S8x8x1024x1024, .f32⟩
  | .hbm, ⟨36, _⟩ => ⟨S_, .f32⟩
  | .hbm, ⟨37, _⟩ => ⟨S8x8x1024x1024, .f32⟩
  | .hbm, ⟨38, _⟩ => ⟨S8x8x1024x1024, .f32⟩
  | .hbm, ⟨39, _⟩ => ⟨S_, .f32⟩
  | .hbm, ⟨40, _⟩ => ⟨S8x8x1024, .f32⟩
  | .hbm, ⟨41, _⟩ => ⟨S8x8x1024x1, .f32⟩
  | .hbm, ⟨42, _⟩ => ⟨S8x8x1024x64, .f32⟩
  | .hbm, ⟨43, _⟩ => ⟨S8x8x1024x64, .f32⟩
  | .hbm, ⟨44, _⟩ => ⟨S_, .f32⟩
  | .hbm, ⟨45, _⟩ => ⟨S8x8x1024, .f32⟩
  | .hbm, ⟨46, _⟩ => ⟨S_, .f32⟩
  | .hbm, ⟨47, _⟩ => ⟨S8x8x1024, .f32⟩
  | .hbm, ⟨48, _⟩ => ⟨S8x8x1024, .f32⟩
  | .hbm, ⟨49, _⟩ => ⟨S_, .f32⟩
  | .hbm, ⟨50, _⟩ => ⟨S8x8x1024, .f32⟩
  | .hbm, ⟨51, _⟩ => ⟨S8x8x1024, .f32⟩
  | .hbm, ⟨52, _⟩ => ⟨S_, .f32⟩
  | .hbm, ⟨53, _⟩ => ⟨S8x8x1024, .f32⟩
  | .hbm, ⟨54, _⟩ => ⟨S8x8x1024, .f32⟩
  | .hbm, ⟨55, _⟩ => ⟨S8x8x1024x1, .f32⟩
  | .hbm, ⟨56, _⟩ => ⟨S8x8x1024x64, .f32⟩
  | .hbm, ⟨57, _⟩ => ⟨S8x8x1024x64, .f32⟩
  | .hbm, ⟨58, _⟩ => ⟨S8x8x1024x1, .f32⟩
  | .hbm, ⟨59, _⟩ => ⟨S8x8x1024x64, .f32⟩
  | .hbm, ⟨60, _⟩ => ⟨S8x8x1024x64, .f32⟩
  | _, _ => ⟨S8x8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_cst_0 : Ref sig .tc := ⟨.hbm, 6, rfl⟩
abbrev main_call0_v2 : Ref sig .tc := ⟨.hbm, 7, rfl⟩
abbrev main_call0_v3 : Ref sig .tc := ⟨.hbm, 8, rfl⟩
abbrev main_call0_cst_1 : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_v4 : Ref sig .tc := ⟨.hbm, 12, rfl⟩
abbrev main_call0_v5 : Ref sig .tc := ⟨.hbm, 13, rfl⟩
abbrev main_call0_cst_2 : Ref sig .tc := ⟨.hbm, 14, rfl⟩
abbrev main_call0_v6 : Ref sig .tc := ⟨.hbm, 15, rfl⟩
abbrev main_call0_v7 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_call1_cst : Ref sig .tc := ⟨.hbm, 21, rfl⟩
abbrev main_call1_v0 : Ref sig .tc := ⟨.hbm, 22, rfl⟩
abbrev main_call1_v1 : Ref sig .tc := ⟨.hbm, 23, rfl⟩
abbrev main_call1_cst_0 : Ref sig .tc := ⟨.hbm, 24, rfl⟩
abbrev main_call1_v2 : Ref sig .tc := ⟨.hbm, 25, rfl⟩
abbrev main_call1_v3 : Ref sig .tc := ⟨.hbm, 26, rfl⟩
abbrev main_call1_cst_1 : Ref sig .tc := ⟨.hbm, 27, rfl⟩
abbrev main_call1_call0_v0 : Ref sig .tc := ⟨.hbm, 28, rfl⟩
abbrev main_call1_call0_v1 : Ref sig .tc := ⟨.hbm, 29, rfl⟩
abbrev main_call1_v4 : Ref sig .tc := ⟨.hbm, 30, rfl⟩
abbrev main_call1_v5 : Ref sig .tc := ⟨.hbm, 31, rfl⟩
abbrev main_call1_cst_2 : Ref sig .tc := ⟨.hbm, 32, rfl⟩
abbrev main_call1_v6 : Ref sig .tc := ⟨.hbm, 33, rfl⟩
abbrev main_call1_v7 : Ref sig .tc := ⟨.hbm, 34, rfl⟩
abbrev main_v3 : Ref sig .tc := ⟨.hbm, 35, rfl⟩
abbrev main_cst_0 : Ref sig .tc := ⟨.hbm, 36, rfl⟩
abbrev main_v4 : Ref sig .tc := ⟨.hbm, 37, rfl⟩
abbrev main_v5 : Ref sig .tc := ⟨.hbm, 38, rfl⟩
abbrev main_cst_1 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_cst_2 : Ref sig .tc := ⟨.hbm, 44, rfl⟩
abbrev main_v10 : Ref sig .tc := ⟨.hbm, 45, rfl⟩
abbrev main_cst_3 : Ref sig .tc := ⟨.hbm, 46, rfl⟩
abbrev main_v11 : Ref sig .tc := ⟨.hbm, 47, rfl⟩
abbrev main_v12 : Ref sig .tc := ⟨.hbm, 48, rfl⟩
abbrev main_cst_4 : Ref sig .tc := ⟨.hbm, 49, rfl⟩
abbrev main_v13 : Ref sig .tc := ⟨.hbm, 50, rfl⟩
abbrev main_v14 : Ref sig .tc := ⟨.hbm, 51, rfl⟩
abbrev main_cst_5 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩

abbrev nD : Nat := 1
abbrev τ : Topo := Topo.v7x

variable {F : FTy → Type} [FloatOps F]

class Facts₀ : Prop where
  bcast_S_S8x8x1024x1024 : S_.BroadcastsInDim S8x8x1024x1024 (![] : Fin 0 → Fin S8x8x1024x1024.rank)
  reducesTo_S8x8x1024x1024_S8x8x1024_d3 : S8x8x1024x1024.ReducesTo [3] S8x8x1024
  h_S_ : 0 < S_.numel
  bcast_S8x8x1024_S8x8x1024x1_0_1_2 : S8x8x1024.BroadcastsInDim S8x8x1024x1 (![0, 1, 2] : Fin 3 → Fin S8x8x1024x1.rank)
  bcast_S8x8x1024x1_S8x8x1024x64_0_1_2_3 : S8x8x1024x1.BroadcastsInDim S8x8x1024x64 (![0, 1, 2, 3] : Fin 4 → Fin S8x8x1024x64.rank)
  reducesTo_S8x8x1024x1024_S8x8x1024_d2 : S8x8x1024x1024.ReducesTo [2] S8x8x1024
  bcast_S_S8x8x1024 : S_.BroadcastsInDim S8x8x1024 (![] : Fin 0 → Fin S8x8x1024.rank)

variable [Facts₀]

class Facts : Prop extends Facts₀ where

variable [Facts]
-- ==== Proof.Spec.lean ====
/-
  The common value of the two programs, as ONE function of the three argument arrays over the extended reals.

  For a head (b, h) write q = Q[b, h] and k = K[b, h] (1024 × 1024 each) and v = V[b, h] (1024 × 64).  With the
  activation φ(x) = x + 1 for x > 0 and eˣ otherwise, the result at row l and column j is

      ( (Σ_c φ(q[l, c])) · ((Σ_c φ(k[l, c])) · v[l, j]) ) · ( 1 / ((Σ_c φ(q[l, c])) · (Σ_r φ(k[r, l])) + ε) ),

  the last sum running down COLUMN l of φ(k): the arrays are square, so a column's index is paired with a row's.
  One program writes the activation as elu(x) + 1, with elu(x) = x for x > 0 and 1 · (eˣ − 1) otherwise.  The law
  that joins the two spellings is (eˣ − 1) + 1 = eˣ for every x ≤ 0 — true at −∞ as well, where e^(−∞) = 0 — so no
  finiteness of the inputs is used anywhere.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-! ## The three float patterns the programs spell -/

/-- The pattern of +0.0 denotes 0. -/
theorem zero_val : Ideal.ofBits .f32 0x00000000#32 = 0 := by
  simp [Ideal.ofBits, Ideal.ieee]

/-- The pattern of 1.0 denotes 1. -/
theorem one_val : Ideal.ofBits .f32 0x3F800000#32 = 1 := by
  simp [Ideal.ofBits, Ideal.ieee, -EReal.coe_mul]; norm_num

/-! ## The activation, in its two spellings -/

/-- φ(x): x + 1 above zero, eˣ otherwise — selected by the comparison x > 0. -/
def act (x : EReal) : EReal :=
  Scalar.select (Ideal.cmp .ogt x (Ideal.ofBits .f32 0x00000000#32)) (x + Ideal.ofBits .f32 0x3F800000#32) (Ideal.exp x)

/-- elu(x) + 1: x above zero and 1 · (e^y − 1) otherwise, y being x with the positive values replaced by 0; then 1 is added. -/
def eluAddOne (x : EReal) : EReal :=
  Scalar.select (Ideal.cmp .ogt x (Ideal.ofBits .f32 0x00000000#32)) x
      (Ideal.ofBits .f32 0x3F800000#32
        * (Ideal.exp (Scalar.select (Ideal.cmp .ogt x (Ideal.ofBits .f32 0x00000000#32)) (Ideal.ofBits .f32 0x00000000#32) x) - 1))
    + Ideal.ofBits .f32 0x3F800000#32

/-- The two spellings are one function on all extended reals.  Above zero both are x + 1.  At or below zero the
    inner selection returns x itself, and 1 · (eˣ − 1) + 1 = eˣ: for a real x this is arithmetic in ℝ, and at −∞ it
    reads 1 · (0 − 1) + 1 = 0 = e^(−∞). -/
theorem eluAddOne_eq_act (x : EReal) : eluAddOne x = act x := by
  unfold eluAddOne act
  rw [zero_val, one_val]
  by_cases h : (0 : EReal) < x
  · have hc : Ideal.cmp .ogt x 0 = 1#1 := by simp [Ideal.cmp, h]
    rw [hc, select_one, select_one]
  · have hc : Ideal.cmp .ogt x 0 = 0#1 := by simp [Ideal.cmp, h]
    rw [hc, select_zero, select_zero, select_zero]
    induction x using EReal.rec with
    | bot =>
      show 1 * ((0 : EReal) - 1) + 1 = 0
      have h0 : (0 : EReal) = ((0 : ℝ) : EReal) := rfl
      have h1 : (1 : EReal) = ((1 : ℝ) : EReal) := rfl
      rw [one_mul, h0, h1, ← EReal.coe_sub, ← EReal.coe_add]
      norm_num
    | top => exact absurd EReal.zero_lt_top h
    | coe r =>
      show 1 * ((Real.exp r : EReal) - 1) + 1 = (Real.exp r : EReal)
      rw [one_mul]
      norm_cast
      ring

/-! ## The result array -/

/-- The shape of Q and of K. -/
abbrev SQ : Shape := ⟨4, ![8, 8, 1024, 1024]⟩
/-- The shape of V and of the result. -/
abbrev SV : Shape := ⟨4, ![8, 8, 1024, 64]⟩

/-- Σ_c φ(X[b, h, l, c]): the sum along row l of head (b, h). -/
def rowSum (X : SQ.Idx → EReal) (b h : Fin 8) (l : Fin 1024) : EReal :=
  ∑ c : Fin 1024, act (X (ix4 b h l c))

/-- Σ_r φ(X[b, h, r, c]): the sum down column c of head (b, h). -/
def colSum (X : SQ.Idx → EReal) (b h : Fin 8) (c : Fin 1024) : EReal :=
  ∑ r : Fin 1024, act (X (ix4 b h r c))

/-- The result at (b, h, l, j), from the row sums of φ(Q) and φ(K) at row l, the sum of φ(K) down column l, and V. -/
def attnAt (Q K : SQ.Idx → EReal) (V : SV.Idx → EReal) (b h : Fin 8) (l : Fin 1024) (j : Fin 64) : EReal :=
  (rowSum Q b h l * (rowSum K b h l * V (ix4 b h l j)))
    * Ideal.div (Ideal.ofBits .f32 0x3F800000#32) (rowSum Q b h l * colSum K b h l + Ideal.ofBits .f32 0x358637BD#32)

/-- The result array. -/
def attn (Q K : SQ.Idx → EReal) (V : SV.Idx → EReal) : SV.Idx → EReal :=
  fun i => attnAt Q K V (i 0) (i 1) (i 2) (i 3)

theorem attn_ix4 (Q K : SQ.Idx → EReal) (V : SV.Idx → EReal) (b h : Fin 8) (l : Fin 1024) (j : Fin 64) :
    attn Q K V (ix4 b h l j) = attnAt Q K V b h l j := rfl

end Cert.Attn

end
-- ==== Proof.LibColumns.lean ====
/-
  Layout operations on COLUMNS and on blocks with two leading unit axes, read at an index given by coordinates.

  A reshape keeps every element at its row-major position.  So an [a, b] matrix viewed as [1, 1, a, b] (a block of a
  four-axis array cut to one matrix), or the other way round, keeps the entry (i, j) at (0, 0, i, j); and a vector of
  length a viewed as a column [a, 1] keeps entry i at (i, 0).  A column [a, 1] repeated along a second axis of extent b
  holds, at (p, c), the column's entry at (p, 0).  Each statement names both indices by their coordinates, so that it
  applies to an operation by unification.
-/
import Idealize.ShloMosaic.Lib.Pipeline.Value
import Idealize.ShloMosaic.Lib.ValueIdx

namespace Cert.LibColumns

open Idealize.ShloMosaic Idealize.ShloMosaic.ValueIdx

variable {α : Type}

/-- A [1, 1, a, b] array cast to [a, b] reads, at (i, j), the operand at (0, 0, i, j): the row-major positions
    ((0·1 + 0)·a + i)·b + j and i·b + j agree. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] array cast to [1, 1, a, b] reads, at (u, w, i, j), the operand at (i, j), whatever the two unit
    coordinates (both are 0). -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw]
    simp only [Nat.zero_mul, Nat.zero_add])

/-- An [a] vector cast to a column [a, 1] reads, at (i, u), the operand at i: the positions i and i·1 + 0 agree. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumns
-- ==== Proof.KernelBlock.lean ====
/-
  What the kernel's body stores for one head, entry by entry.

  The body loads the head's two square blocks x0, x1 (as [1, 1, 1024, 1024]) and its block x2 of V (as [1, 1, 1024, 64]),
  views them as matrices, applies the activation φ to every entry of the first two, and forms three columns of 1024
  numbers: the sums along each ROW of φ(x0) and of φ(x1), and the sums down each COLUMN of φ(x1) — computed as a row of
  1024 sums and then TRANSPOSED into a column, so that the l-th column sum stands beside the l-th row sums.  The stored
  entry (l, j) is

      (rowsum₀ l · (rowsum₁ l · x2[l, j])) · (1 / (rowsum₀ l · colsum₁ l + ε)).

  Each step is read at an index: a view of a block as a matrix and back keeps row-major positions; a sum along an axis of
  a matrix at an index is the sum over that axis's coordinate; a column repeated along the rows reads its own entry of
  that row; a transposed row reads the row's entry.
-/
import proofs.«127588_j36498632082002_1_alg».proof.Proof.Gen.KernelIdeal.Skeleton
import proofs.«127588_j36498632082002_1_alg».proof.Proof.Spec
import proofs.«127588_j36498632082002_1_alg».proof.Proof.LibColumns
import Idealize.ShloMosaic.PureOps.Ideal.Laws
import Idealize.ShloMosaic.Lib.ValueIdx
import Idealize.ShloMosaic.Lib.ValueLayout

noncomputable section

namespace Cert.KernelIdeal.Block

open Cert.KernelIdeal Cert.KernelIdeal.Gen Idealize.ShloMosaic Idealize.ShloMosaic.ValueIdx Cert.Attn Cert.LibColumns

/-! ## The body's value as a composition of four array functions -/

/-- A square block viewed as a matrix. -/
def mat (x : FVec Ideal S1x1x1024x1024 .f32) : FVec Ideal S1024x1024 .f32 :=
  shapeCast S1024x1024 x shapeCasts_S1x1x1024x1024_S1024x1024

/-- φ at every entry of a square block viewed as a matrix. -/
def actM (x : FVec Ideal S1x1x1024x1024 .f32) : FVec Ideal S1024x1024 .f32 :=
  select
    (cmpf .ogt (mat x) (broadcast S1024x1024 (Scalar.ofBits .f32 0x00000000#32)))
    (addf (mat x) (broadcast S1024x1024 (Scalar.ofBits .f32 0x3F800000#32)))
    (exp (mat x))

/-- The sums along the rows of a matrix, as a column. -/
def rowCol (y : FVec Ideal S1024x1024 .f32) : FVec Ideal S1024x1 .f32 :=
  shapeCast S1024x1 (multiReduction .add [1] S1024 y 0x00000000#32 reduces_S1024x1024_S1024 (.inl rfl) rfl) shapeCasts_S1024_S1024x1

/-- The sums down the columns of a matrix: a row of sums, transposed into a column. -/
def colCol (y : FVec Ideal S1024x1024 .f32) : FVec Ideal S1024x1 .f32 :=
  transpose S1024x1 [1, 0]
    (shapeCast S1x1024 (multiReduction .add [0] S1024 y 0x00000000#32 reduces_S1024x1024_S1024_2 (.inl rfl) rfl) shapeCasts_S1024_S1x1024)
    transposes_S1x1024_p1_0_S1024x1

/-- A column repeated along 64 columns. -/
def wide (y : FVec Ideal S1024x1 .f32) : FVec Ideal S1024x64 .f32 :=
  broadcastTo S1024x64 y broadcasts_S1024x1_S1024x64

/-- The body's arithmetic is that composition, by unfolding its lines. -/
theorem pay2_eq (x0 x1 : FVec Ideal S1x1x1024x1024 .f32) (x2 : FVec Ideal S1x1x1024x64 .f32) :
    k0_pay2 (F := Ideal) x0 x1 x2
      = mulf (mulf (wide (rowCol (actM x0))) (mulf (wide (rowCol (actM x1))) (shapeCast S1024x64 x2 shapeCasts_S1x1x1024x64_S1024x64)))
          (wide (divf (broadcast S1024x1 (Scalar.ofBits .f32 0x3F800000#32))
            (addf (mulf (rowCol (actM x0)) (colCol (actM x1))) (broadcast S1024x1 (Scalar.ofBits .f32 0x358637BD#32))))) := rfl

/-! ## The four functions at an index -/

/-- The activated matrix at (l, c) is φ of the block's entry (0, 0, l, c). -/
theorem actM_apply (x : FVec Ideal S1x1x1024x1024 .f32) (l c : Fin 1024) :
    actM x (ix2 l c) = act (x (ix4 (0 : Fin 1) (0 : Fin 1) l c)) := by
  show act (shapeCast S1024x1024 x shapeCasts_S1x1x1024x1024_S1024x1024 (ix2 l c)) = _
  exact congrArg act (shapeCast_11ab_ab_apply x shapeCasts_S1x1x1024x1024_S1024x1024 l c)

/-- The inserted index of a sum along the rows: (l) with c put in as the second coordinate is (l, c). -/
theorem lift_row (l c : Fin 1024) : reduces_S1024x1024_S1024.lift (ix1 l) c = ix2 l c :=
  funext fun a => Fin.ext (match a with | ⟨0, _⟩ => rfl | ⟨1, _⟩ => rfl)

/-- The inserted index of a sum down the columns: (c) with r put in as the first coordinate is (r, c). -/
theorem lift_col (c r : Fin 1024) : reduces_S1024x1024_S1024_2.lift (ix1 c) r = ix2 r c :=
  funext fun a => Fin.ext (match a with | ⟨0, _⟩ => rfl | ⟨1, _⟩ => rfl)

/-- The column of row sums at (l, ·) is the sum over the l-th row. -/
theorem rowCol_apply (y : FVec Ideal S1024x1024 .f32) (l : Fin 1024) (u : Fin 1) :
    rowCol y (ix2 l u) = ∑ c : Fin 1024, y (ix2 l c) := by
  refine (shapeCast_a_a1_apply _ shapeCasts_S1024_S1024x1 l u).trans ?_
  refine (Ideal.multiReduction_add_single y 0x00000000#32 reduces_S1024x1024_S1024 (.inl rfl) rfl (ix1 l)).trans ?_
  exact Finset.sum_congr rfl fun c _ => congrArg y (lift_row l c)

/-- The column of column sums at (l, ·) is the sum down the l-th column. -/
theorem colCol_apply (y : FVec Ideal S1024x1024 .f32) (l : Fin 1024) (u : Fin 1) :
    colCol y (ix2 l u) = ∑ r : Fin 1024, y (ix2 r l) := by
  refine (transpose_ix2_apply _ transposes_S1x1024_p1_0_S1024x1 l u).trans ?_
  refine (shapeCast_a_1a_apply _ shapeCasts_S1024_S1x1024 u l).trans ?_
  refine (Ideal.multiReduction_add_single y 0x00000000#32 reduces_S1024x1024_S1024_2 (.inl rfl) rfl (ix1 l)).trans ?_
  exact Finset.sum_congr rfl fun r _ => congrArg y (lift_col l r)

/-- A column spread along the rows reads, at (l, j), its entry of row l. -/
theorem wide_apply (y : FVec Ideal S1024x1 .f32) (l : Fin 1024) (j : Fin 64) : wide y (ix2 l j) = y (ix2 l (0 : Fin 1)) :=
  broadcastTo_a1_ab_apply y broadcasts_S1024x1_S1024x64 l j

/-! ## The stored entry -/

/-- Σ_c φ(x[0, 0, l, c]). -/
def blockRowSum (x : FVec Ideal S1x1x1024x1024 .f32) (l : Fin 1024) : EReal :=
  ∑ c : Fin 1024, act (x (ix4 (0 : Fin 1) (0 : Fin 1) l c))

/-- Σ_r φ(x[0, 0, r, c]). -/
def blockColSum (x : FVec Ideal S1x1x1024x1024 .f32) (c : Fin 1024) : EReal :=
  ∑ r : Fin 1024, act (x (ix4 (0 : Fin 1) (0 : Fin 1) r c))

theorem rowCol_actM (x : FVec Ideal S1x1x1024x1024 .f32) (l : Fin 1024) (u : Fin 1) :
    rowCol (actM x) (ix2 l u) = blockRowSum x l :=
  (rowCol_apply (actM x) l u).trans (Finset.sum_congr rfl fun c _ => actM_apply x l c)

theorem colCol_actM (x : FVec Ideal S1x1x1024x1024 .f32) (l : Fin 1024) (u : Fin 1) :
    colCol (actM x) (ix2 l u) = blockColSum x l :=
  (colCol_apply (actM x) l u).trans (Finset.sum_congr rfl fun r _ => actM_apply x r l)

/-- The body's arithmetic at (l, j). -/
theorem pay2_apply (x0 x1 : FVec Ideal S1x1x1024x1024 .f32) (x2 : FVec Ideal S1x1x1024x64 .f32) (l : Fin 1024) (j : Fin 64) :
    k0_pay2 (F := Ideal) x0 x1 x2 (ix2 l j)
      = (blockRowSum x0 l * (blockRowSum x1 l * x2 (ix4 (0 : Fin 1) (0 : Fin 1) l j)))
          * Ideal.div (Ideal.ofBits .f32 0x3F800000#32) (blockRowSum x0 l * blockColSum x1 l + Ideal.ofBits .f32 0x358637BD#32) := by
  rw [pay2_eq]
  show (wide (rowCol (actM x0)) (ix2 l j) * (wide (rowCol (actM x1)) (ix2 l j) * shapeCast S1024x64 x2 shapeCasts_S1x1x1024x64_S1024x64 (ix2 l j)))
      * wide (divf (broadcast S1024x1 (Scalar.ofBits .f32 0x3F800000#32))
            (addf (mulf (rowCol (actM x0)) (colCol (actM x1))) (broadcast S1024x1 (Scalar.ofBits .f32 0x358637BD#32)))) (ix2 l j) = _
  rw [wide_apply, wide_apply, wide_apply, shapeCast_11ab_ab_apply x2 shapeCasts_S1x1x1024x64_S1024x64 l j]
  show (rowCol (actM x0) (ix2 l (0 : Fin 1)) * (rowCol (actM x1) (ix2 l (0 : Fin 1)) * x2 (ix4 (0 : Fin 1) (0 : Fin 1) l j)))
      * Ideal.div (Ideal.ofBits .f32 0x3F800000#32)
          (rowCol (actM x0) (ix2 l (0 : Fin 1)) * colCol (actM x1) (ix2 l (0 : Fin 1)) + Ideal.ofBits .f32 0x358637BD#32) = _
  rw [rowCol_actM, rowCol_actM, colCol_actM]

/-- What the body stores, at (0, 0, l, j): its arithmetic at (l, j), the matrix viewed as a block again. -/
theorem stored_apply (x0 x1 : FVec Ideal S1x1x1024x1024 .f32) (x2 : FVec Ideal S1x1x1024x64 .f32) (u w : Fin 1) (l : Fin 1024) (j : Fin 64) :
    k0_pay1 (F := Ideal) (k0_pay2 x0 x1 x2) (ix4 u w l j)
      = (blockRowSum x0 l * (blockRowSum x1 l * x2 (ix4 (0 : Fin 1) (0 : Fin 1) l j)))
          * Ideal.div (Ideal.ofBits .f32 0x3F800000#32) (blockRowSum x0 l * blockColSum x1 l + Ideal.ofBits .f32 0x358637BD#32) :=
  (shapeCast_ab_11ab_apply _ shapeCasts_S1024x64_S1x1x1024x64 u w l j).trans (pay2_apply x0 x1 x2 l j)

end Cert.KernelIdeal.Block

end
-- ==== Proof.KernelArray.lean ====
/-
  The kernel's result array, whole.

  The grid has one point per head (b, h), and at that point each window's block is the head's own slice: block index
  (b, h, 0, 0) of Q, of K, of V and of the result, the same pair (b, h) for all four (decided over the 64 points).  So
  what the point writes back — the body's stored block of the three loaded blocks — is, entry (0, 0, l, j) by entry, the
  value of the one function `attn Q K V` at (b, h, l, j): the loaded blocks' rows and columns ARE the arrays' rows and
  columns of that head.  The 64 blocks tile the result array (the head of an index (b, h, l, j) is (b, h)), hence the
  array after the run is `attn` of the three argument arrays everywhere.
-/
import proofs.«127588_j36498632082002_1_alg».proof.Proof.Gen.KernelIdeal.Value
import proofs.«127588_j36498632082002_1_alg».proof.Proof.KernelBlock

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)
open Cert.Attn Cert.KernelIdeal.Block

variable (m : (ℓ : Loc nD τ sig) → Buf (Elt Ideal) ℓ) (ρ : Dev nD → PrngReg)

theorem origin : (![0, 0, 0, 0] : Fin 4 → Nat) = fun _ => 0 := funext fun a => by fin_cases a <;> rfl

/-! ## One stored block against the whole-array function, over variables -/

/-- If the three loaded blocks are head (b, h)'s slices of three arrays Q, K, W, then the stored block's entry at a block
    index y is `attn Q K W` at any array index i with head (b, h) and y's last two coordinates. -/
theorem stored_eq_attn (Q K : SQ.Idx → EReal) (W : SV.Idx → EReal)
    (x0 x1 : FVec Ideal S1x1x1024x1024 .f32) (x2 : FVec Ideal S1x1x1024x64 .f32) (b h : Fin 8)
    (h0 : ∀ l c : Fin 1024, x0 (ix4 (0 : Fin 1) (0 : Fin 1) l c) = Q (ix4 b h l c))
    (h1 : ∀ l c : Fin 1024, x1 (ix4 (0 : Fin 1) (0 : Fin 1) l c) = K (ix4 b h l c))
    (h2 : ∀ (l : Fin 1024) (j : Fin 64), x2 (ix4 (0 : Fin 1) (0 : Fin 1) l j) = W (ix4 b h l j))
    (y : S1x1x1024x64.Idx) (i : SV.Idx)
    (hi0 : (i 0).val = b.val) (hi1 : (i 1).val = h.val) (hi2 : (i 2).val = (y 2).val) (hi3 : (i 3).val = (y 3).val) :
    k0_pay1 (F := Ideal) (k0_pay2 x0 x1 x2) y = attn Q K W i := by
  obtain ⟨u, w, l, j, rfl⟩ : ∃ (u w : Fin 1) (l : Fin 1024) (j : Fin 64), y = ix4 u w l j := ⟨y 0, y 1, y 2, y 3, eq_ix4 y⟩
  have hi : i = ix4 b h l j :=
    funext fun a => Fin.ext (match a with | ⟨0, _⟩ => hi0 | ⟨1, _⟩ => hi1 | ⟨2, _⟩ => hi2 | ⟨3, _⟩ => hi3)
  rw [hi, stored_apply, attn_ix4]
  unfold attnAt rowSum colSum blockRowSum blockColSum
  simp only [h0, h1, h2]

/-! ## The index maps, decided over the grid -/

/-- At every point the four windows sit at one head: block index (b, h, 0, 0) with the same b < 8 and h < 8. -/
theorem idx_facts : ∀ t : Fin cfg0.N,
    win0_0.index t (0 : Fin 4) = win0_3.index t (0 : Fin 4) ∧ win0_0.index t (1 : Fin 4) = win0_3.index t (1 : Fin 4)
    ∧ win0_0.index t (2 : Fin 4) = 0 ∧ win0_0.index t (3 : Fin 4) = 0
    ∧ win0_1.index t (0 : Fin 4) = win0_3.index t (0 : Fin 4) ∧ win0_1.index t (1 : Fin 4) = win0_3.index t (1 : Fin 4)
    ∧ win0_1.index t (2 : Fin 4) = 0 ∧ win0_1.index t (3 : Fin 4) = 0
    ∧ win0_2.index t (0 : Fin 4) = win0_3.index t (0 : Fin 4) ∧ win0_2.index t (1 : Fin 4) = win0_3.index t (1 : Fin 4)
    ∧ win0_2.index t (2 : Fin 4) = 0 ∧ win0_2.index t (3 : Fin 4) = 0
    ∧ win0_3.index t (2 : Fin 4) = 0 ∧ win0_3.index t (3 : Fin 4) = 0
    ∧ win0_3.index t (0 : Fin 4) < 8 ∧ win0_3.index t (1 : Fin 4) < 8 :=
  (by decide +kernel : ∀ t : Fin grid0.N, _)

/-- Every head is some point's. -/
theorem idx_onto : ∀ (b h : Fin 8), ∃ t : Fin cfg0.N, win0_3.index t = ![b.val, h.val, 0, 0] :=
  (by decide +kernel : ∀ (b h : Fin 8), ∃ t : Fin grid0.N, win0_3.index t = ![b.val, h.val, 0, 0])

/-! ## What a point writes back -/

/-- Point t writes back block t of `attn` of the argument arrays as the region finds them. -/
theorem flushed_eq (c : Dev nD) (t : Fin cfg0.N) :
    (dats m 0 c).flushed 3 t
      = ((cfg0.win 3).blk t).view.read (Elt Ideal) (attn (V m c main_arg0) (V m c main_arg1) (V m c main_arg2)) := by
  rw [Value.flushed3]
  unfold out0_3
  rw [View.canon_unit_zero origin]
  simp only [View.ld_unit_zero (S := S1x1x1024x1024) origin, View.ld_unit_zero (S := S1x1x1024x64) origin]
  obtain ⟨e00, e01, e02, e03, e10, e11, e12, e13, e20, e21, e22, e23, e32, e33, hb, hh⟩ := idx_facts t
  funext y
  show k0_pay1 (F := Ideal) (k0_pay2 (iblk m c 0 t) (iblk m c 1 t) (iblk m c 2 t)) y
      = attn (V m c main_arg0) (V m c main_arg1) (V m c main_arg2) (((cfg0.win 3).blk t).view.emb y)
  have hy0 : (y 0).val < 1 := (y 0).isLt
  have hy1 : (y 1).val < 1 := (y 1).isLt
  refine stored_eq_attn (V m c main_arg0) (V m c main_arg1) (V m c main_arg2) (iblk m c 0 t) (iblk m c 1 t) (iblk m c 2 t)
    ⟨win0_3.index t (0 : Fin 4), hb⟩ ⟨win0_3.index t (1 : Fin 4), hh⟩ ?_ ?_ ?_ y _ ?_ ?_ ?_ ?_
  · intro l c'
    show V m c main_arg0 (((cfg0.win 0).blk t).view.emb (ix4 (0 : Fin 1) (0 : Fin 1) l c')) = _
    refine congrArg _ (funext fun a => Fin.ext ?_)
    match a with
    | ⟨0, _⟩ => show win0_0.index t (0 : Fin 4) * 1 + 1 * 0 = win0_3.index t (0 : Fin 4); omega
    | ⟨1, _⟩ => show win0_0.index t (1 : Fin 4) * 1 + 1 * 0 = win0_3.index t (1 : Fin 4); omega
    | ⟨2, _⟩ => show win0_0.index t (2 : Fin 4) * 1024 + 1 * l.val = l.val; omega
    | ⟨3, _⟩ => show win0_0.index t (3 : Fin 4) * 1024 + 1 * c'.val = c'.val; omega
  · intro l c'
    show V m c main_arg1 (((cfg0.win 1).blk t).view.emb (ix4 (0 : Fin 1) (0 : Fin 1) l c')) = _
    refine congrArg _ (funext fun a => Fin.ext ?_)
    match a with
    | ⟨0, _⟩ => show win0_1.index t (0 : Fin 4) * 1 + 1 * 0 = win0_3.index t (0 : Fin 4); omega
    | ⟨1, _⟩ => show win0_1.index t (1 : Fin 4) * 1 + 1 * 0 = win0_3.index t (1 : Fin 4); omega
    | ⟨2, _⟩ => show win0_1.index t (2 : Fin 4) * 1024 + 1 * l.val = l.val; omega
    | ⟨3, _⟩ => show win0_1.index t (3 : Fin 4) * 1024 + 1 * c'.val = c'.val; omega
  · intro l j
    show V m c main_arg2 (((cfg0.win 2).blk t).view.emb (ix4 (0 : Fin 1) (0 : Fin 1) l j)) = _
    refine congrArg _ (funext fun a => Fin.ext ?_)
    match a with
    | ⟨0, _⟩ => show win0_2.index t (0 : Fin 4) * 1 + 1 * 0 = win0_3.index t (0 : Fin 4); omega
    | ⟨1, _⟩ => show win0_2.index t (1 : Fin 4) * 1 + 1 * 0 = win0_3.index t (1 : Fin 4); omega
    | ⟨2, _⟩ => show win0_2.index t (2 : Fin 4) * 1024 + 1 * l.val = l.val; omega
    | ⟨3, _⟩ => show win0_2.index t (3 : Fin 4) * 64 + 1 * j.val = j.val; omega
  · show win0_3.index t (0 : Fin 4) * 1 + 1 * (y 0).val = win0_3.index t (0 : Fin 4); omega
  · show win0_3.index t (1 : Fin 4) * 1 + 1 * (y 1).val = win0_3.index t (1 : Fin 4); omega
  · show win0_3.index t (2 : Fin 4) * 1024 + 1 * (y 2).val = (y 2).val; omega
  · show win0_3.index t (3 : Fin 4) * 64 + 1 * (y 3).val = (y 3).val; omega

/-! ## The blocks tile the array -/

/-- An index of the result array is in point t's block iff each coordinate is in the block's range on its axis. -/
theorem mem_blk (t : Fin cfg0.N) (i : S8x8x1024x64.Idx) :
    i ∈ ((cfg0.win 3).blk t).view.set ↔ ∀ a : Fin 4, win0_3.index t a * S1x1x1024x64.size a ≤ (i a).val
      ∧ (i a).val < win0_3.index t a * S1x1x1024x64.size a + S1x1x1024x64.size a := by
  show i ∈ ((View.whole main_v0).slice (win0_3.rect t)).set ↔ _
  rw [View.set_slice_whole, Rect.mem_set_unit]
  exact Iff.rfl

/-- Every index is in the block of its head's point. -/
theorem cover (i : S8x8x1024x64.Idx) : ∃ t : Fin cfg0.N, (cfg0.win 3).flush t = true ∧ i ∈ ((cfg0.win 3).blk t).view.set := by
  have hi0 : (i 0).val < 8 := (i 0).isLt
  have hi1 : (i 1).val < 8 := (i 1).isLt
  have hi2 : (i 2).val < 1024 := (i 2).isLt
  have hi3 : (i 3).val < 64 := (i 3).isLt
  obtain ⟨t, ht⟩ := idx_onto ⟨(i 0).val, hi0⟩ ⟨(i 1).val, hi1⟩
  have q0 : win0_3.index t (0 : Fin 4) = (i 0).val := congrFun ht 0
  have q1 : win0_3.index t (1 : Fin 4) = (i 1).val := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 1024 ≤ (i 2).val ∧ (i 2).val < win0_3.index t (2 : Fin 4) * 1024 + 1024; omega
  | ⟨3, _⟩ => show win0_3.index t (3 : Fin 4) * 64 ≤ (i 3).val ∧ (i 3).val < win0_3.index t (3 : Fin 4) * 64 + 64; omega

/-! ## The array, and the run -/

/-- The result array after the run is `attn` of the argument arrays as launched. -/
theorem final (c : Dev nD) :
    (dats m 0 c).arrAt 3 cfg0.N
      = attn (m ((c : Thread nD τ).loc main_arg0)) (m ((c : Thread nD τ).loc main_arg1)) (m ((c : Thread nD τ).loc main_arg2)) :=
  (dats m 0 c).arrAt_eq_of_cover 3 (attn (V m c main_arg0) (V m c main_arg1) (V m c main_arg2)) (fun t _ => flushed_eq m c t) cover

/-- Every weakly fair execution terminates with the result at `attn` of the arguments, and the arguments unchanged. -/
theorem run : θ_run defs (onTc (τ := τ) (main (F := Ideal))) ⟨m, fun _ => 0, ρ⟩ fun r => ∀ c : Dev nD,
      r.2.mem ((c : Thread nD τ).loc main_v0)
          = attn (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefRun.lean ====
/-
  The reference program's run, read back.  Its @main is a straight line of 58 array operations once the two calls of
  elu — and, inside each, the two selections jax outlines — are written out at their call sites over the buffers each
  call names: fifteen operations per call (the comparison x > 0 twice, the zero and the one spread over the array, the
  inner selection of 0 or x, e^y − 1, the product with 1, the outer selection), then 1 added; and after the two calls
  the sums along the last axis of both activated arrays, the sum of the second down its third axis, and the products
  and the quotient that combine them with V.  Every weakly fair execution of such a line terminates with each buffer at
  the composition of the operations that wrote it; the composition that lands in the result buffer is the term
  `out Q K V` below, built from five small array functions, and the three arguments are written by nothing.
-/
import proofs.«127588_j36498632082002_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-! ## The operations, in order -/

/-- @main's 58 operations: elu on Q (15), + 1 (3); elu on K (15), + 1 (3); the combination (22). -/
abbrev ops : List (HloOp τ sig (Elt F)) :=
  [
    TRef.nullary main_call0.cst (constant S_ .f32 0x00000000#32),
    TRef.unary main_call0.cst main_call0.v0 (broadcastInDim S8x8x1024x1024 ![] bcast_S_S8x8x1024x1024),
    TRef.binary (.of main_arg0) main_call0.v0 main_call0.v1 (cmpf .ogt),
    TRef.nullary main_call0.cst_0 (constant S_ .f32 0x00000000#32),
    TRef.unary main_call0.cst_0 main_call0.v2 (broadcastInDim S8x8x1024x1024 ![] bcast_S_S8x8x1024x1024),
    TRef.binary (.of main_arg0) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S8x8x1024x1024 ![] bcast_S_S8x8x1024x1024),
    TRef.ternary main_call0.v3 main_call0.call0.v1 (.of main_arg0) main_call0.call0.v2 select,
    TRef.unary main_call0.call0.v2 main_call0.v5 Host.expm1,
    TRef.nullary main_call0.cst_2 (constant S_ .f32 0x3F800000#32),
    TRef.unary main_call0.cst_2 main_call0.v6 (broadcastInDim S8x8x1024x1024 ![] bcast_S_S8x8x1024x1024),
    TRef.binary main_call0.v6 main_call0.v5 main_call0.v7 mulf,
    TRef.ternary main_call0.v1 (.of main_arg0) main_call0.v7 main_call0.call1.v0 select,
    nullary main_cst (constant S_ .f32 0x3F800000#32),
    unary main_cst main_v1 (broadcastInDim S8x8x1024x1024 ![] bcast_S_S8x8x1024x1024 : (⟨S_, .f32⟩ : BufTy).Contents (Elt F) → (⟨S8x8x1024x1024, .f32⟩ : BufTy).Contents (Elt F)),
    binary main_v0 main_v1 main_v2 (addf : (⟨S8x8x1024x1024, .f32⟩ : BufTy).Contents (Elt F) → (⟨S8x8x1024x1024, .f32⟩ : BufTy).Contents (Elt F) → (⟨S8x8x1024x1024, .f32⟩ : BufTy).Contents (Elt F)),
    TRef.nullary main_call1.cst (constant S_ .f32 0x00000000#32),
    TRef.unary main_call1.cst main_call1.v0 (broadcastInDim S8x8x1024x1024 ![] bcast_S_S8x8x1024x1024),
    TRef.binary (.of main_arg1) main_call1.v0 main_call1.v1 (cmpf .ogt),
    TRef.nullary main_call1.cst_0 (constant S_ .f32 0x00000000#32),
    TRef.unary main_call1.cst_0 main_call1.v2 (broadcastInDim S8x8x1024x1024 ![] bcast_S_S8x8x1024x1024),
    TRef.binary (.of main_arg1) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S8x8x1024x1024 ![] bcast_S_S8x8x1024x1024),
    TRef.ternary main_call1.v3 main_call1.call0.v1 (.of main_arg1) main_call1.call0.v2 select,
    TRef.unary main_call1.call0.v2 main_call1.v5 Host.expm1,
    TRef.nullary main_call1.cst_2 (constant S_ .f32 0x3F800000#32),
    TRef.unary main_call1.cst_2 main_call1.v6 (broadcastInDim S8x8x1024x1024 ![] bcast_S_S8x8x1024x1024),
    TRef.binary main_call1.v6 main_call1.v5 main_call1.v7 mulf,
    TRef.ternary main_call1.v1 (.of main_arg1) main_call1.v7 main_call1.call1.v0 select,
    nullary main_cst_0 (constant S_ .f32 0x3F800000#32),
    unary main_cst_0 main_v4 (broadcastInDim S8x8x1024x1024 ![] bcast_S_S8x8x1024x1024 : (⟨S_, .f32⟩ : BufTy).Contents (Elt F) → (⟨S8x8x1024x1024, .f32⟩ : BufTy).Contents (Elt F)),
    binary main_v3 main_v4 main_v5 (addf : (⟨S8x8x1024x1024, .f32⟩ : BufTy).Contents (Elt F) → (⟨S8x8x1024x1024, .f32⟩ : BufTy).Contents (Elt F) → (⟨S8x8x1024x1024, .f32⟩ : BufTy).Contents (Elt F)),
    nullary main_cst_1 (constant S_ .f32 0x00000000#32),
    binary main_v5 main_cst_1 main_v6 ((fun x v => Host.reduceAdd x v reducesTo_S8x8x1024x1024_S8x8x1024_d3 h_S_) : (⟨S8x8x1024x1024, .f32⟩ : BufTy).Contents (Elt F) → (⟨S_, .f32⟩ : BufTy).Contents (Elt F) → (⟨S8x8x1024, .f32⟩ : BufTy).Contents (Elt F)),
    unary main_v6 main_v7 (broadcastInDim S8x8x1024x1 ![0, 1, 2] bcast_S8x8x1024_S8x8x1024x1_0_1_2 : (⟨S8x8x1024, .f32⟩ : BufTy).Contents (Elt F) → (⟨S8x8x1024x1, .f32⟩ : BufTy).Contents (Elt F)),
    unary main_v7 main_v8 (broadcastInDim S8x8x1024x64 ![0, 1, 2, 3] bcast_S8x8x1024x1_S8x8x1024x64_0_1_2_3 : (⟨S8x8x1024x1, .f32⟩ : BufTy).Contents (Elt F) → (⟨S8x8x1024x64, .f32⟩ : BufTy).Contents (Elt F)),
    binary main_v8 main_arg2 main_v9 (mulf : (⟨S8x8x1024x64, .f32⟩ : BufTy).Contents (Elt F) → (⟨S8x8x1024x64, .f32⟩ : BufTy).Contents (Elt F) → (⟨S8x8x1024x64, .f32⟩ : BufTy).Contents (Elt F)),
    nullary main_cst_2 (constant S_ .f32 0x00000000#32),
    binary main_v2 main_cst_2 main_v10 ((fun x v => Host.reduceAdd x v reducesTo_S8x8x1024x1024_S8x8x1024_d3 h_S_) : (⟨S8x8x1024x1024, .f32⟩ : BufTy).Contents (Elt F) → (⟨S_, .f32⟩ : BufTy).Contents (Elt F) → (⟨S8x8x1024, .f32⟩ : BufTy).Contents (Elt F)),
    nullary main_cst_3 (constant S_ .f32 0x00000000#32),
    binary main_v5 main_cst_3 main_v11 ((fun x v => Host.reduceAdd x v reducesTo_S8x8x1024x1024_S8x8x1024_d2 h_S_) : (⟨S8x8x1024x1024, .f32⟩ : BufTy).Contents (Elt F) → (⟨S_, .f32⟩ : BufTy).Contents (Elt F) → (⟨S8x8x1024, .f32⟩ : BufTy).Contents (Elt F)),
    binary main_v10 main_v11 main_v12 (mulf : (⟨S8x8x1024, .f32⟩ : BufTy).Contents (Elt F) → (⟨S8x8x1024, .f32⟩ : BufTy).Contents (Elt F) → (⟨S8x8x1024, .f32⟩ : BufTy).Contents (Elt F)),
    nullary main_cst_4 (constant S_ .f32 0x358637BD#32),
    unary main_cst_4 main_v13 (broadcastInDim S8x8x1024 ![] bcast_S_S8x8x1024 : (⟨S_, .f32⟩ : BufTy).Contents (Elt F) → (⟨S8x8x1024, .f32⟩ : BufTy).Contents (Elt F)),
    binary main_v12 main_v13 main_v14 (addf : (⟨S8x8x1024, .f32⟩ : BufTy).Contents (Elt F) → (⟨S8x8x1024, .f32⟩ : BufTy).Contents (Elt F) → (⟨S8x8x1024, .f32⟩ : BufTy).Contents (Elt F)),
    nullary main_cst_5 (constant S_ .f32 0x3F800000#32),
    unary main_cst_5 main_v15 (broadcastInDim S8x8x1024 ![] bcast_S_S8x8x1024 : (⟨S_, .f32⟩ : BufTy).Contents (Elt F) → (⟨S8x8x1024, .f32⟩ : BufTy).Contents (Elt F)),
    binary main_v15 main_v14 main_v16 (Host.divf : (⟨S8x8x1024, .f32⟩ : BufTy).Contents (Elt F) → (⟨S8x8x1024, .f32⟩ : BufTy).Contents (Elt F) → (⟨S8x8x1024, .f32⟩ : BufTy).Contents (Elt F)),
    unary main_v10 main_v17 (broadcastInDim S8x8x1024x1 ![0, 1, 2] bcast_S8x8x1024_S8x8x1024x1_0_1_2 : (⟨S8x8x1024, .f32⟩ : BufTy).Contents (Elt F) → (⟨S8x8x1024x1, .f32⟩ : BufTy).Contents (Elt F)),
    unary main_v17 main_v18 (broadcastInDim S8x8x1024x64 ![0, 1, 2, 3] bcast_S8x8x1024x1_S8x8x1024x64_0_1_2_3 : (⟨S8x8x1024x1, .f32⟩ : BufTy).Contents (Elt F) → (⟨S8x8x1024x64, .f32⟩ : BufTy).Contents (Elt F)),
    binary main_v18 main_v9 main_v19 (mulf : (⟨S8x8x1024x64, .f32⟩ : BufTy).Contents (Elt F) → (⟨S8x8x1024x64, .f32⟩ : BufTy).Contents (Elt F) → (⟨S8x8x1024x64, .f32⟩ : BufTy).Contents (Elt F)),
    unary main_v16 main_v20 (broadcastInDim S8x8x1024x1 ![0, 1, 2] bcast_S8x8x1024_S8x8x1024x1_0_1_2 : (⟨S8x8x1024, .f32⟩ : BufTy).Contents (Elt F) → (⟨S8x8x1024x1, .f32⟩ : BufTy).Contents (Elt F)),
    unary main_v20 main_v21 (broadcastInDim S8x8x1024x64 ![0, 1, 2, 3] bcast_S8x8x1024x1_S8x8x1024x64_0_1_2_3 : (⟨S8x8x1024x1, .f32⟩ : BufTy).Contents (Elt F) → (⟨S8x8x1024x64, .f32⟩ : BufTy).Contents (Elt F)),
    binary main_v19 main_v21 main_v22 (mulf : (⟨S8x8x1024x64, .f32⟩ : BufTy).Contents (Elt F) → (⟨S8x8x1024x64, .f32⟩ : BufTy).Contents (Elt F) → (⟨S8x8x1024x64, .f32⟩ : BufTy).Contents (Elt F)) ]

-- fifty-eight binds re-associated: the rewriting under the chain recurses once per statement
set_option maxRecDepth 4096 in
/-- @main is that line: the three functions' bodies unfolded at their calls, the sequencing re-associated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..,
    nullary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..,
    nullary_bufs_sub .., unary_bufs_sub .., binary_bufs_sub ..,
    nullary_bufs_sub .., binary_bufs_sub .., unary_bufs_sub .., unary_bufs_sub .., binary_bufs_sub ..,
    nullary_bufs_sub .., binary_bufs_sub .., nullary_bufs_sub .., binary_bufs_sub .., binary_bufs_sub ..,
    nullary_bufs_sub .., unary_bufs_sub .., binary_bufs_sub .., nullary_bufs_sub .., unary_bufs_sub .., binary_bufs_sub ..,
    unary_bufs_sub .., unary_bufs_sub .., binary_bufs_sub .., unary_bufs_sub .., unary_bufs_sub .., binary_bufs_sub ..⟩

/-! ## What the line computes -/

/-- A scalar pattern spread over an array of Q's shape. -/
def splat4 (w : BitVec 32) : FVec F S8x8x1024x1024 .f32 :=
  broadcastInDim S8x8x1024x1024 ![] bcast_S_S8x8x1024x1024 (constant S_ .f32 w)

/-- A scalar pattern spread over an array of the row sums' shape. -/
def splat3 (w : BitVec 32) : FVec F S8x8x1024 .f32 :=
  broadcastInDim S8x8x1024 ![] bcast_S_S8x8x1024 (constant S_ .f32 w)

/-- elu(x) + 1, entry by entry: x where x > 0 and 1 · (e^y − 1) elsewhere, y being x with its positive entries
    replaced by 0; then 1 added. -/
def eluAddOne (x : FVec F S8x8x1024x1024 .f32) : FVec F S8x8x1024x1024 .f32 :=
  addf
    (select (cmpf .ogt x (splat4 0x00000000#32)) x
      (mulf (splat4 0x3F800000#32)
        (Host.expm1 (select (cmpf .ogt x (splat4 0x00000000#32)) (splat4 0x00000000#32) x))))
    (splat4 0x3F800000#32)

/-- The sums along the last axis, from 0. -/
def rowSums (x : FVec F S8x8x1024x1024 .f32) : FVec F S8x8x1024 .f32 :=
  Host.reduceAdd x (constant S_ .f32 0x00000000#32) reducesTo_S8x8x1024x1024_S8x8x1024_d3 h_S_

/-- The sums down the third axis, from 0. -/
def colSums (x : FVec F S8x8x1024x1024 .f32) : FVec F S8x8x1024 .f32 :=
  Host.reduceAdd x (constant S_ .f32 0x00000000#32) reducesTo_S8x8x1024x1024_S8x8x1024_d2 h_S_

/-- A [8, 8, 1024] array repeated along a new last axis of 64. -/
def spread (y : FVec F S8x8x1024 .f32) : FVec F S8x8x1024x64 .f32 :=
  broadcastInDim S8x8x1024x64 ![0, 1, 2, 3] bcast_S8x8x1024x1_S8x8x1024x64_0_1_2_3
    (broadcastInDim S8x8x1024x1 ![0, 1, 2] bcast_S8x8x1024_S8x8x1024x1_0_1_2 y)

/-- The result: (rowsums(φQ) · (rowsums(φK) · V)) · (1 / (rowsums(φQ) · colsums(φK) + ε)), φ = elu + 1. -/
def out (Q K : FVec F S8x8x1024x1024 .f32) (V : FVec F S8x8x1024x64 .f32) : FVec F S8x8x1024x64 .f32 :=
  mulf (mulf (spread (rowSums (eluAddOne Q))) (mulf (spread (rowSums (eluAddOne K))) V))
    (spread (Host.divf (splat3 0x3F800000#32)
      (addf (mulf (rowSums (eluAddOne Q)) (colSums (eluAddOne K))) (splat3 0x358637BD#32))))

/-- The composition that lands in the result buffer is `out` of the three arguments' contents. -/
theorem out_eq (W : Valuation τ sig (Elt F)) :
    after ops W (main_v22 : DevRef τ sig)
      = out (W (main_arg0 : DevRef τ sig)) (W (main_arg1 : DevRef τ sig)) (W (main_arg2 : DevRef τ sig)) := by
  unfold out spread rowSums colSums eluAddOne splat4 splat3
  after_results_simp
  rfl

theorem arg0_eq (W : Valuation τ sig (Elt F)) : after ops W (main_arg0 : DevRef τ sig) = W (main_arg0 : DevRef τ sig) := by
  after_results_simp
theorem arg1_eq (W : Valuation τ sig (Elt F)) : after ops W (main_arg1 : DevRef τ sig) = W (main_arg1 : DevRef τ sig) := by
  after_results_simp
theorem arg2_eq (W : Valuation τ sig (Elt F)) : after ops W (main_arg2 : DevRef τ sig) = W (main_arg2 : DevRef τ sig) := by
  after_results_simp

/-! ## The run -/

/-- On every device, for any float values, from any memory with zero counters: every weakly fair execution of @main
    terminates with the result buffer at `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22)
          = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v22).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.Line

end
-- ==== Proof.RefValue.lean ====
/-
  The reference's result term is the common function, entry by entry.

  At (b, h, l, j) the term reads: the product of three factors spread from [8, 8, 1024] arrays along the last axis —
  each reads its entry (b, h, l) —, and V's own entry.  The two sums along the last axis at (b, h, l) are 0 plus the sum
  over c of the summand at (b, h, l, c); the sum down the third axis at (b, h, l) is 0 plus the sum over r of the
  summand at (b, h, r, l): the kept coordinates (b, h, ·) are followed by the LAST coordinate of the summand, which is
  how a column sum comes to stand at position l.  The summand is elu(x) + 1 at an entry, which is φ of that entry
  (the activation law of the specification).
-/
import proofs.«127588_j36498632082002_1_alg».proof.Proof.RefRun
import proofs.«127588_j36498632082002_1_alg».proof.Proof.Spec
import Idealize.ShloMosaic.PureOps.Ideal.Laws
import Idealize.ShloMosaic.Lib.ValueIdx
import Idealize.ShloMosaic.Lib.Pipeline.Value

noncomputable section

namespace Cert.ReferenceIdeal.Entry

open Cert.ReferenceIdeal Cert.ReferenceIdeal.Gen Idealize.ShloMosaic Idealize.ShloMosaic.ValueIdx
open Cert.ReferenceIdeal.Line (splat3 splat4 rowSums colSums spread out)

/-! ## The pieces at an index -/

/-- elu(x) + 1 of an array, at an entry, is the scalar elu + 1 of that entry: every operation in it is entrywise, and a
    spread scalar reads as itself. -/
theorem eluAddOne_apply (x : FVec Ideal S8x8x1024x1024 .f32) (i : S8x8x1024x1024.Idx) :
    Line.eluAddOne x i = Cert.Attn.eluAddOne (x i) := rfl

/-- ... which is φ of the entry. -/
theorem eluAddOne_act (x : FVec Ideal S8x8x1024x1024 .f32) (i : S8x8x1024x1024.Idx) :
    Line.eluAddOne x i = Cert.Attn.act (x i) :=
  (eluAddOne_apply x i).trans (Cert.Attn.eluAddOne_eq_act (x i))

theorem reduces3 : S8x8x1024x1024.Reduces [3] S8x8x1024 := by decide
theorem reduces2 : S8x8x1024x1024.Reduces [2] S8x8x1024 := by decide

/-- (b, h, l) with c put in as the last coordinate. -/
theorem lift3 (b h : Fin 8) (l c : Fin 1024) : reduces3.lift (ix3 b h l) c = ix4 b h l c :=
  funext fun a => Fin.ext (match a with | ⟨0, _⟩ => rfl | ⟨1, _⟩ => rfl | ⟨2, _⟩ => rfl | ⟨3, _⟩ => rfl)

/-- (b, h, c) with r put in as the third coordinate. -/
theorem lift2 (b h : Fin 8) (c r : Fin 1024) : reduces2.lift (ix3 b h c) r = ix4 b h r c :=
  funext fun a => Fin.ext (match a with | ⟨0, _⟩ => rfl | ⟨1, _⟩ => rfl | ⟨2, _⟩ => rfl | ⟨3, _⟩ => rfl)

/-- The sums along the last axis: 0 + Σ_c x[b, h, l, c]. -/
theorem rowSums_apply (x : FVec Ideal S8x8x1024x1024 .f32) (b h : Fin 8) (l : Fin 1024) :
    rowSums x (ix3 b h l) = ∑ c : Fin 1024, x (ix4 b h l c) := by
  show Ideal.hostReduceAdd reducesTo_S8x8x1024x1024_S8x8x1024_d3 x (Ideal.ofBits .f32 0x00000000#32) (ix3 b h l) = _
  rw [Ideal.hostReduceAdd_single reducesTo_S8x8x1024x1024_S8x8x1024_d3 reduces3 x _ (ix3 b h l), Cert.Attn.zero_val, zero_add]
  exact Finset.sum_congr rfl fun c _ => congrArg x (lift3 b h l c)

/-- The sums down the third axis: 0 + Σ_r x[b, h, r, c]. -/
theorem colSums_apply (x : FVec Ideal S8x8x1024x1024 .f32) (b h : Fin 8) (c : Fin 1024) :
    colSums x (ix3 b h c) = ∑ r : Fin 1024, x (ix4 b h r c) := by
  show Ideal.hostReduceAdd reducesTo_S8x8x1024x1024_S8x8x1024_d2 x (Ideal.ofBits .f32 0x00000000#32) (ix3 b h c) = _
  rw [Ideal.hostReduceAdd_single reducesTo_S8x8x1024x1024_S8x8x1024_d2 reduces2 x _ (ix3 b h c), Cert.Attn.zero_val, zero_add]
  exact Finset.sum_congr rfl fun r _ => congrArg x (lift2 b h c r)

/-- An array over (b, h, l) spread along a last axis reads, at (b, h, l, j), its entry (b, h, l): first through the
    unit last axis, then through the three kept axes. -/
theorem spread_apply (y : FVec Ideal S8x8x1024 .f32) (b h : Fin 8) (l : Fin 1024) (j : Fin 64) :
    spread y (ix4 b h l j) = y (ix3 b h l) := by
  refine (broadcastInDim_apply _ bcast_S8x8x1024x1_S8x8x1024x64_0_1_2_3 _ (ix4 b h l j) (ix4 b h l (0 : Fin 1)) fun a => ?_).trans ?_
  · match a with
    | ⟨0, _⟩ => show b.val = (if (8 : Nat) = 1 then 0 else b.val); rw [if_neg (by decide)]
    | ⟨1, _⟩ => show h.val = (if (8 : Nat) = 1 then 0 else h.val); rw [if_neg (by decide)]
    | ⟨2, _⟩ => show l.val = (if (1024 : Nat) = 1 then 0 else l.val); rw [if_neg (by decide)]
    | ⟨3, _⟩ => show 0 = (if (1 : Nat) = 1 then 0 else j.val); rw [if_pos rfl]
  · refine broadcastInDim_apply _ bcast_S8x8x1024_S8x8x1024x1_0_1_2 y (ix4 b h l (0 : Fin 1)) (ix3 b h l) fun a => ?_
    match a with
    | ⟨0, _⟩ => show b.val = (if (8 : Nat) = 1 then 0 else b.val); rw [if_neg (by decide)]
    | ⟨1, _⟩ => show h.val = (if (8 : Nat) = 1 then 0 else h.val); rw [if_neg (by decide)]
    | ⟨2, _⟩ => show l.val = (if (1024 : Nat) = 1 then 0 else l.val); rw [if_neg (by decide)]

/-! ## The sums of the activated arrays are the specification's -/

theorem rowSums_elu (X : FVec Ideal S8x8x1024x1024 .f32) (b h : Fin 8) (l : Fin 1024) :
    rowSums (Line.eluAddOne X) (ix3 b h l) = Cert.Attn.rowSum X b h l :=
  (rowSums_apply _ b h l).trans (Finset.sum_congr rfl fun c _ => eluAddOne_act X (ix4 b h l c))

theorem colSums_elu (X : FVec Ideal S8x8x1024x1024 .f32) (b h : Fin 8) (c : Fin 1024) :
    colSums (Line.eluAddOne X) (ix3 b h c) = Cert.Attn.colSum X b h c :=
  (colSums_apply _ b h c).trans (Finset.sum_congr rfl fun r _ => eluAddOne_act X (ix4 b h r c))

/-! ## The result -/

/-- The reference's term IS the common function. -/
theorem out_eq_attn (Q K : FVec Ideal S8x8x1024x1024 .f32) (W : FVec Ideal S8x8x1024x64 .f32) :
    out Q K W = Cert.Attn.attn Q K W := by
  funext i
  obtain ⟨b, h, l, j, rfl⟩ : ∃ (b h : Fin 8) (l : Fin 1024) (j : Fin 64), i = ix4 b h l j := ⟨i 0, i 1, i 2, i 3, eq_ix4 i⟩
  rw [Cert.Attn.attn_ix4]
  show (spread (rowSums (Line.eluAddOne Q)) (ix4 b h l j) * (spread (rowSums (Line.eluAddOne K)) (ix4 b h l j) * W (ix4 b h l j)))
      * spread (Host.divf (splat3 0x3F800000#32)
          (addf (mulf (rowSums (Line.eluAddOne Q)) (colSums (Line.eluAddOne K))) (splat3 0x358637BD#32))) (ix4 b h l j) = _
  rw [spread_apply, spread_apply, spread_apply]
  show (rowSums (Line.eluAddOne Q) (ix3 b h l) * (rowSums (Line.eluAddOne K) (ix3 b h l) * W (ix4 b h l j)))
      * Ideal.div (Ideal.ofBits .f32 0x3F800000#32)
          (rowSums (Line.eluAddOne Q) (ix3 b h l) * colSums (Line.eluAddOne K) (ix3 b h l) + Ideal.ofBits .f32 0x358637BD#32) = _
  rw [rowSums_elu, rowSums_elu, colSums_elu]
  rfl

end Cert.ReferenceIdeal.Entry

end
-- ==== Proof.lean ====
/-
  The kernel and its reference compute one function of (Q, K, V), over the extended reals.

  For each of the 8 × 8 heads, with φ(x) = x + 1 for x > 0 and eˣ otherwise applied to every entry of the head's square
  matrices q and k, the result's entry (l, j) is

      ( (Σ_c φ(q[l, c])) · ((Σ_c φ(k[l, c])) · v[l, j]) ) · ( 1 / ((Σ_c φ(q[l, c])) · (Σ_r φ(k[r, l])) + ε) ).

  The kernel computes it one head per grid point: it activates the two loaded matrices, sums φ(q) and φ(k) along rows and
  φ(k) down columns, turns the row of column sums into a column, and combines the three columns with the block of V.
  Its blocks tile the result, so the array it leaves is that function of the arguments (Proof/KernelBlock.lean for one
  block, Proof/KernelArray.lean for the array).  The reference computes it on whole arrays, spelling the activation as
  elu(x) + 1 and the sums as reductions from 0; its straight line of 58 array operations is read back in
  Proof/RefRun.lean and its result term is the same function entry by entry (Proof/RefValue.lean), by the one law
  1 · (eˣ − 1) + 1 = eˣ for x ≤ 0 (Proof/Spec.lean), which holds at −∞ too: nothing here uses that the inputs are finite.
  Both programs group the products and place ε the same way and spell 0, 1 and ε by the same patterns, and a sum is a sum
  whatever its order, so no other law is needed.  Each program terminates without fault and leaves its arguments as they
  were; the idealized kernel is the kernel's own text read over the extended reals (no operation was rewritten).
-/
import proofs.«127588_j36498632082002_1_alg».proof.Defs
import proofs.«127588_j36498632082002_1_alg».proof.Proof.Gen.Kernel
import proofs.«127588_j36498632082002_1_alg».proof.Proof.Gen.Kernel.Frame
import proofs.«127588_j36498632082002_1_alg».proof.Proof.Gen.KernelIdeal
import proofs.«127588_j36498632082002_1_alg».proof.Proof.Gen.KernelIdeal.Frame
import proofs.«127588_j36498632082002_1_alg».proof.Proof.Gen.ReferenceIdeal
import proofs.«127588_j36498632082002_1_alg».proof.Proof.Gen.Pre_finite_inputs
import proofs.«127588_j36498632082002_1_alg».proof.Proof.KernelArray
import proofs.«127588_j36498632082002_1_alg».proof.Proof.RefValue
import Idealize.ShloMosaic.Adequacy
import Idealize.ShloMosaic.Init

noncomputable section

namespace Cert.Proof

open Idealize.ShloMosaic Idealize.ShloMosaic.TcCoe Idealize.SL.Sem

/-- The kernel, word by word, runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference's straight line runs and writes none of its arguments: its read-back run with the result dropped. -/
theorem frame_referenceIdeal : Cert.frame_ReferenceIdeal := fun m ρ _ =>
  (θ_run Cert.ReferenceIdeal.defs _ _).mono (fun _ h c => (h c).2) (Cert.ReferenceIdeal.Line.run (F := Ideal) m ρ)

/-- No operation of the kernel was rewritten for the reading over the extended reals: there is nothing to preserve. -/
theorem preserves : Cert.preserves_Kernel_KernelIdeal := trivial

/-- From memories that agree on Q, K and V both programs end with the result array at `attn Q K V`: the kernel by its
    blocks, the reference by its term read entry by entry. -/
theorem algebraic : Cert.algebraic_KernelIdeal_ReferenceIdeal := by
  intro m ρ m' ρ' _ hagree
  refine ⟨fun c => Cert.Attn.attn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Line.run (F := Ideal) m' ρ')
  rw [(hagree c).1, (hagree c).2.1, (hagree c).2.2]
  exact Cert.ReferenceIdeal.Entry.out_eq_attn _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
